-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part1 {F : FTy → Type} [FloatOps F] (main_arg1 : IVec S2x500000 32) (main_arg5 : FVec F S1 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294867296#32
  let main_v24 : IVec S2x500000 32 := broadcastInDim S2x500000 ![] bcast_S_S2x500000 main_c_8
  let main_v25 : IVec S2x500000 1 := cmpi .sge main_arg1 main_v24
  let main_c_9 : IVec S_ 32 := constantI S_ 32 100000#32
  let main_v26 : IVec S2x500000 32 := broadcastInDim S2x500000 ![] bcast_S_S2x500000 main_c_9
  let main_v27 : IVec S2x500000 1 := cmpi .slt main_arg1 main_v26
  let main_v28 : IVec S2x500000 1 := andi main_v25 main_v27
  let main_c_10 : IVec S_ 1 := constantI S_ 1 1#1
  let main_v29 : IVec S_ 1 := (fun x v => Host.reduce IntOp.andi x v reducesTo_S2x500000_S_d0_1 h_S_) main_v28 main_c_10
  let main_v30 : IVec S_ 1 := andi main_v23 main_v29
  main_v30

def fn {F : FTy → Type} [FloatOps F] (main_arg0 : FVec F S100000x128 .f32) (main_arg1 : IVec S2x500000 32) (main_arg2 : FVec F S256x256 .f32) (main_arg3 : FVec F S256 .f32) (main_arg4 : FVec F S1x256 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256 .f32 := Host.absf main_arg4
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg1 main_arg5 main_v13 main_v16
-- ==== Kernel.lean ====
abbrev S100000x128 : Shape := ⟨2, ![100000, 128]⟩
abbrev S2x500000 : Shape := ⟨2, ![2, 500000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S503808 : Shape := ⟨1, ![503808]⟩
abbrev S503808x1 : Shape := ⟨2, ![503808, 1]⟩
abbrev S1x1 : Shape := ⟨2, ![1, 1]⟩
abbrev S503808x128 : Shape := ⟨2, ![503808, 128]⟩
abbrev S256x128 : Shape := ⟨2, ![256, 128]⟩
abbrev S128x256 : Shape := ⟨2, ![128, 256]⟩
abbrev S256x1 : Shape := ⟨2, ![256, 1]⟩
abbrev S4096x128 : Shape := ⟨2, ![4096, 128]⟩
abbrev S4096x1 : Shape := ⟨2, ![4096, 1]⟩
abbrev S4096x256 : Shape := ⟨2, ![4096, 256]⟩
abbrev S500000x1 : Shape := ⟨2, ![500000, 1]⟩

abbrev nBuf : Space → Nat
  | .hbm => 70
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S_, .i32⟩
  | .hbm, ⟨12, _⟩ => ⟨S503808, .i32⟩
  | .hbm, ⟨13, _⟩ => ⟨S_, .i32⟩
  | .hbm, ⟨14, _⟩ => ⟨S_, .i32⟩
  | .hbm, ⟨15, _⟩ => ⟨S503808, .i32⟩
  | .hbm, ⟨16, _⟩ => ⟨S_, .i32⟩
  | .hbm, ⟨17, _⟩ => ⟨S503808, .i32⟩
  | .hbm, ⟨18, _⟩ => ⟨S503808, .i1⟩
  | .hbm, ⟨19, _⟩ => ⟨S_, .i32⟩
  | .hbm, ⟨20, _⟩ => ⟨S503808, .i32⟩
  | .hbm, ⟨21, _⟩ => ⟨S503808, .i32⟩
  | .hbm, ⟨22, _⟩ => ⟨S503808, .i32⟩
  | .hbm, ⟨23, _⟩ => ⟨S503808x1, .i32⟩
  | .hbm, ⟨24, _⟩ => ⟨S1, .i32⟩
  | .hbm, ⟨25, _⟩ => ⟨S_, .i32⟩
  | .hbm, ⟨26, _⟩ => ⟨S503808x1, .i32⟩
  | .hbm, ⟨27, _⟩ => ⟨S503808x1, .i1⟩
  | .hbm, ⟨28, _⟩ => ⟨S1x1, .i32⟩
  | .hbm, ⟨29, _⟩ => ⟨S503808x1, .i32⟩
  | .hbm, ⟨30, _⟩ => ⟨S503808x1, .i1⟩
  | .hbm, ⟨31, _⟩ => ⟨S503808x1, .i1⟩
  | .hbm, ⟨32, _⟩ => ⟨S_, .i1⟩
  | .hbm, ⟨33, _⟩ => ⟨S503808, .i1⟩
  | .hbm, ⟨34, _⟩ => ⟨S503808x128, .f32⟩
  | .hbm, ⟨35, _⟩ => ⟨S503808x128, .i1⟩
  | .hbm, ⟨36, _⟩ => ⟨S_, .f32⟩
  | .hbm, ⟨37, _⟩ => ⟨S503808x128, .f32⟩
  | .hbm, ⟨38, _⟩ => ⟨S503808x128, .f32⟩
  | .hbm, ⟨39, _⟩ => ⟨S_, .i32⟩
  | .hbm, ⟨40, _⟩ => ⟨S503808, .i32⟩
  | .hbm, ⟨41, _⟩ => ⟨S503808, .i1⟩
  | .hbm, ⟨42, _⟩ => ⟨S_, .i32⟩
  | .hbm, ⟨43, _⟩ => ⟨S503808, .i32⟩
  | .hbm, ⟨44, _⟩ => ⟨S503808, .i32⟩
  | .hbm, ⟨45, _⟩ => ⟨S503808, .i32⟩
  | .hbm, ⟨46, _⟩ => ⟨S503808x1, .i32⟩
  | .hbm, ⟨47, _⟩ => ⟨S1, .i32⟩
  | .hbm, ⟨48, _⟩ => ⟨S_, .i32⟩
  | .hbm, ⟨49, _⟩ => ⟨S503808x1, .i32⟩
  | .hbm, ⟨50, _⟩ => ⟨S503808x1, .i1⟩
  | .hbm, ⟨51, _⟩ => ⟨S1x1, .i32⟩
  | .hbm, ⟨52, _⟩ => ⟨S503808x1, .i32⟩
  | .hbm, ⟨53, _⟩ => ⟨S503808x1, .i1⟩
  | .hbm, ⟨54, _⟩ => ⟨S503808x1, .i1⟩
  | .hbm, ⟨55, _⟩ => ⟨S_, .i1⟩
  | .hbm, ⟨56, _⟩ => ⟨S503808, .i1⟩
  | .hbm, ⟨57, _⟩ => ⟨S503808x128, .f32⟩
  | .hbm, ⟨58, _⟩ => ⟨S503808x128, .i1⟩
  | .hbm, ⟨59, _⟩ => ⟨S_, .f32⟩
  | .hbm, ⟨60, _⟩ => ⟨S503808x128, .f32⟩
  | .hbm, ⟨61, _⟩ => ⟨S503808x128, .f32⟩
  | .hbm, ⟨62, _⟩ => ⟨S256x128, .f32⟩
  | .hbm, ⟨63, _⟩ => ⟨S128x256, .f32⟩
  | .hbm, ⟨64, _⟩ => ⟨S256x128, .f32⟩
  | .hbm, ⟨65, _⟩ => ⟨S128x256, .f32⟩
  | .hbm, ⟨66, _⟩ => ⟨S256x1, .f32⟩
  | .hbm, ⟨67, _⟩ => ⟨S503808x1, .f32⟩
  | .hbm, ⟨68, _⟩ => ⟨S500000x1, .f32⟩
  | .hbm, ⟨69, _⟩ => ⟨S500000, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S256x1, .f32⟩
  | .local _ .vmem, ⟨8, _⟩ => ⟨S1, .f32⟩
  | .local _ .vmem, ⟨9, _⟩ => ⟨S4096x1, .f32⟩
  | .local _ .vmem, ⟨10, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_v14 : Ref sig .tc := ⟨.hbm, 35, rfl⟩
abbrev main_call2_cst : Ref sig .tc := ⟨.hbm, 36, rfl⟩
abbrev main_call2_v15 : Ref sig .tc := ⟨.hbm, 37, rfl⟩
abbrev main_v6 : Ref sig .tc := ⟨.hbm, 38, rfl⟩
abbrev main_call3_c : Ref sig .tc := ⟨.hbm, 39, rfl⟩
abbrev main_call3_v0 : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_c_1 : Ref sig .tc := ⟨.hbm, 47, rfl⟩
abbrev main_call3_c_2 : Ref sig .tc := ⟨.hbm, 48, rfl⟩
abbrev main_call3_v6 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_3 : Ref sig .tc := ⟨.hbm, 55, rfl⟩
abbrev main_call3_v12 : Ref sig .tc := ⟨.hbm, 56, rfl⟩
abbrev main_call3_v13 : Ref sig .tc := ⟨.hbm, 57, rfl⟩
abbrev main_call3_v14 : Ref sig .tc := ⟨.hbm, 58, rfl⟩
abbrev main_call3_cst : Ref sig .tc := ⟨.hbm, 59, rfl⟩
abbrev main_call3_v15 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  pads_S500000_S503808_038080 : S500000.Pads (![0] : Fin 1 → Nat) ![3808] ![0] S503808
  h_S_ : 0 < S_.numel
  bcast_S_S503808 : S_.BroadcastsInDim S503808 (![] : Fin 0 → Fin S503808.rank)
  bcast_S503808_S503808x1_0 : S503808.BroadcastsInDim S503808x1 (![0] : Fin 1 → Fin S503808x1.rank)
  bcast_S_S503808x1 : S_.BroadcastsInDim S503808x1 (![] : Fin 0 → Fin S503808x1.rank)
  bcast_S1_S1x1_1 : S1.BroadcastsInDim S1x1 (![1] : Fin 1 → Fin S1x1.rank)
  bcast_S1x1_S503808x1_0_1 : S1x1.BroadcastsInDim S503808x1 (![0, 1] : Fin 2 → Fin S503808x1.rank)
  reducesTo_S503808x1_S503808_d1 : S503808x1.ReducesTo [1] S503808
  bcast_S503808_S503808x128_0 : S503808.BroadcastsInDim S503808x128 (![0] : Fin 1 → Fin S503808x128.rank)
  bcast_S_S503808x128 : S_.BroadcastsInDim S503808x128 (![] : Fin 0 → Fin S503808x128.rank)
  slices_S256x256_S256x128_0_0 : S256x256.Slices ![0, 0] S256x128
  transposes_S256x128_S128x256_1_0 : S256x128.Transposes [1, 0] S128x256
  slices_S256x256_S256x128_0_128 : S256x256.Slices ![0, 128] S256x128
  transposes_S1x256_S256x1_1_0 : S1x256.Transposes [1, 0] S256x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  slices_S503808x1_S500000x1_0_0 : S503808x1.Slices ![0, 0] S500000x1
  shapeCasts_S500000x1_S500000 : S500000x1.ShapeCasts S500000
  gather_S100000x128_S503808x1_S503808x128_1_0_n_n_0_1_1128_wf : GatherDims.WF S100000x128 S503808x1 S503808x128 [1] [0] [] [0] [] 1 ![1, 128]
  dot_S4096x128_S128x256_S4096x256_1_0_0_1_n_n_wf : DotDims.WF S4096x128 S128x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S503808x128.size a
  hwx0_1 : ∀ i : grid0.Coords, EltTy.bits .f32 = 32 ∨ (Rect.block (s := S503808x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S503808x1.size a
  hwx0_7 : ∀ i : grid0.Coords, EltTy.bits .f32 = 32 ∨ (Rect.block (s := S503808x1) S4096x1.size (cc0_transform_7 i) (hinb0_7 i)).WholeWords (EltTy.packing .f32)

variable [Facts₀]

def gather_S100000x128_S503808x1_S503808x128_1_0_n_n_0_1_1128 : GatherDims S100000x128 S503808x1 S503808x128 where
  offsetDims := [1]
  collapsedSliceDims := [0]
  operandBatchingDims := []
  startIndicesBatchingDims := []
  startIndexMap := [0]
  indexVectorDim := 1
  sliceSizes := ![1, 128]
  wf := gather_S100000x128_S503808x1_S503808x128_1_0_n_n_0_1_1128_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v6) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S256x1 : Shape := ⟨2, ![256, 1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S500000x256, .f32⟩
  | .hbm, ⟨29, _⟩ => ⟨S256x256, .f32⟩
  | .hbm, ⟨30, _⟩ => ⟨S500000x256, .f32⟩
  | .hbm, ⟨31, _⟩ => ⟨S1x256, .f32⟩
  | .hbm, ⟨32, _⟩ => ⟨S500000x256, .f32⟩
  | .hbm, ⟨33, _⟩ => ⟨S500000x256, .f32⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S256x1, .f32⟩
  | .hbm, ⟨38, _⟩ => ⟨S500000x1, .f32⟩
  | .hbm, ⟨39, _⟩ => ⟨S1x1, .f32⟩
  | .hbm, ⟨40, _⟩ => ⟨S500000x1, .f32⟩
  | .hbm, ⟨41, _⟩ => ⟨S500000x1, .f32⟩
  | .hbm, ⟨42, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  transposes_S256x256_S256x256_1_0 : S256x256.Transposes [1, 0] S256x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S1x256_S256x1_1_0 : S1x256.Transposes [1, 0] S256x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x128_S500000x1_S500000x128_1_0_n_n_0_1_1128_wf : GatherDims.WF S100000x128 S500000x1 S500000x128 [1] [0] [] [0] [] 1 ![1, 128]
  dot_S500000x256_S256x256_S500000x256_1_0_0_1_n_n_wf : DotDims.WF S500000x256 S256x256 S500000x256 [1] [0] [0] [1] [] []
  dot_S500000x256_S256x1_S500000x1_1_0_0_1_n_n_wf : DotDims.WF S500000x256 S256x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.Spec.lean ====
import Idealize.ShloMosaic.PureOps.Ideal
import Idealize.ShloMosaic.Lib.ValueIdx
import proofs.«431329_j30176440221878_1_alg».proof.Proof.LibGatherScatter

/-!
# The edge decoder as one function of its inputs

For an edge `e` with endpoints `u = edge_index[0, e]` and `v = edge_index[1, e]` the decoder scores the pair of
embedding rows `a = z[u]`, `b = z[v]` (each of length 128) by a two-layer perceptron over their concatenation:

  `score = Σ_j relu( Σ_k a_k · W1[j, k] + Σ_k b_k · W1[j, 128 + k] + b1[j] ) · W2[0, j] + b2[0]`,

`j` over the 256 hidden units. A row index is counted from the end when negative and then clamped into the table
(`rowOf`). The same number is written twice below: over the first-layer weight as two 128 × 256 halves, already
transposed, and a 256 × 1 readout column (`kscore`), and over the weights as given (`score`); `kscore_eq_score`
says the two agree when the halves and the column are those transposes.
-/

noncomputable section

open scoped BigOperators
open Idealize.ShloMosaic Idealize.ShloMosaic.ValueIdx

namespace Cert.EdgeMlp

/-- The threshold of the rectifier: the word of `+0.0`, read at the ideal instance. -/
abbrev zero32 : EReal := Ideal.ofBits .f32 0x00000000#32

/-- Column `k` of the first half of the concatenated pair. -/
def lo (k : Fin 128) : Fin 256 := ⟨k.val, by omega⟩
/-- Column `k` of the second half of the concatenated pair. -/
def hi (k : Fin 128) : Fin 256 := ⟨128 + k.val, by omega⟩

/-- The score of a pair of rows over the two transposed halves of the first layer and the readout column. -/
def kscore (a b : Fin 128 → EReal) (wu wv : (⟨2, ![128, 256]⟩ : Shape).Idx → EReal)
    (b1 : (⟨1, ![256]⟩ : Shape).Idx → EReal) (w2 : (⟨2, ![256, 1]⟩ : Shape).Idx → EReal)
    (b2 : (⟨1, ![1]⟩ : Shape).Idx → EReal) : EReal :=
  (∑ j : Fin 256, max ((∑ k : Fin 128, a k * wu (ix2 k j) + ∑ k : Fin 128, b k * wv (ix2 k j)) + b1 (ix1 j)) zero32
      * w2 (ix2 j 0)) + b2 (ix1 0)

/-- The score of a pair of rows over the weights as given: `W1` is 256 × 256 (hidden unit, concatenated column),
    `W2` is 1 × 256. -/
def score (a b : Fin 128 → EReal) (W1 : (⟨2, ![256, 256]⟩ : Shape).Idx → EReal)
    (b1 : (⟨1, ![256]⟩ : Shape).Idx → EReal) (W2 : (⟨2, ![1, 256]⟩ : Shape).Idx → EReal)
    (b2 : (⟨1, ![1]⟩ : Shape).Idx → EReal) : EReal :=
  (∑ j : Fin 256, max ((∑ k : Fin 128, a k * W1 (ix2 j (lo k)) + ∑ k : Fin 128, b k * W1 (ix2 j (hi k))) + b1 (ix1 j)) zero32
      * W2 (ix2 0 j)) + b2 (ix1 0)

/-- The two spellings agree when the halves are the transposed column ranges of `W1` and the column is `W2` transposed. -/
theorem kscore_eq_score (a b : Fin 128 → EReal) (wu wv : (⟨2, ![128, 256]⟩ : Shape).Idx → EReal)
    (b1 : (⟨1, ![256]⟩ : Shape).Idx → EReal) (w2 : (⟨2, ![256, 1]⟩ : Shape).Idx → EReal)
    (b2 : (⟨1, ![1]⟩ : Shape).Idx → EReal) (W1 : (⟨2, ![256, 256]⟩ : Shape).Idx → EReal)
    (W2 : (⟨2, ![1, 256]⟩ : Shape).Idx → EReal)
    (hu : ∀ (k : Fin 128) (j : Fin 256), wu (ix2 k j) = W1 (ix2 j (lo k)))
    (hv : ∀ (k : Fin 128) (j : Fin 256), wv (ix2 k j) = W1 (ix2 j (hi k)))
    (h2 : ∀ j : Fin 256, w2 (ix2 j 0) = W2 (ix2 0 j)) :
    kscore a b wu wv b1 w2 b2 = score a b W1 b1 W2 b2 := by
  unfold kscore score
  simp only [hu, hv, h2]

/-- The table row an index word selects: counted from the end when negative, then clamped into the 100000 rows. -/
def rowOf (w : BitVec 32) : Fin 100000 := Cert.Lib.clampRow 100000 (by decide) (Cert.Lib.normIdx 100000#32 w)

/-- THE SPECIFICATION: the score of every edge, as a function of the six inputs. -/
def G (z : (⟨2, ![100000, 128]⟩ : Shape).Idx → EReal) (ei : IVec ⟨2, ![2, 500000]⟩ 32)
    (W1 : (⟨2, ![256, 256]⟩ : Shape).Idx → EReal) (b1 : (⟨1, ![256]⟩ : Shape).Idx → EReal)
    (W2 : (⟨2, ![1, 256]⟩ : Shape).Idx → EReal) (b2 : (⟨1, ![1]⟩ : Shape).Idx → EReal) :
    (⟨1, ![500000]⟩ : Shape).Idx → EReal :=
  fun i => score (fun k => z (ix2 (rowOf (ei (ix2 (0 : Fin 2) (⟨(i 0).val, (i 0).isLt⟩ : Fin 500000)))) k))
    (fun k => z (ix2 (rowOf (ei (ix2 (1 : Fin 2) (⟨(i 0).val, (i 0).isLt⟩ : Fin 500000)))) k)) W1 b1 W2 b2

/-- The specification at edge `e`. -/
theorem G_apply (z : (⟨2, ![100000, 128]⟩ : Shape).Idx → EReal) (ei : IVec ⟨2, ![2, 500000]⟩ 32)
    (W1 : (⟨2, ![256, 256]⟩ : Shape).Idx → EReal) (b1 : (⟨1, ![256]⟩ : Shape).Idx → EReal)
    (W2 : (⟨2, ![1, 256]⟩ : Shape).Idx → EReal) (b2 : (⟨1, ![1]⟩ : Shape).Idx → EReal) (e : Fin 500000) :
    G z ei W1 b1 W2 b2 (ix1 e) = score (fun k => z (ix2 (rowOf (ei (ix2 (0 : Fin 2) e))) k))
      (fun k => z (ix2 (rowOf (ei (ix2 (1 : Fin 2) e))) k)) W1 b1 W2 b2 := rfl

end Cert.EdgeMlp

end
-- ==== Proof.PayValue.lean ====
import proofs.«431329_j30176440221878_1_alg».proof.Proof.Gen.KernelIdeal.Skeleton
import proofs.«431329_j30176440221878_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.EdgeMlp

open Cert.KernelIdeal Cert.KernelIdeal.Gen

/-! ## The first layer's contraction: a [4096, 128] block of rows times a [128, 256] half of the weight

The dimension numbers contract the left operand's axis 1 with the right operand's axis 0 and have no batch axis, so at
output index `(p, j)` and contraction position `k` the left operand is read at `(p, k)` and the right at `(k, j)`: one
lemma per operand and axis, then the sum over the contraction's index set re-indexed over `Fin 128`. -/

private theorem lhs_hid_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
private theorem lhs_hid_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
private theorem rhs_hid_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
private theorem rhs_hid_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- Into a zero accumulator, the product at row `p` and hidden unit `j` is `Σ_k x[p, k] · w[k, j]` over the 128 columns. -/
private theorem matmul_hid_apply (x : FVec Ideal S4096x128 .bf16) (w : FVec Ideal S128x256 .bf16) (p : Fin 4096) (j : Fin 256) :
    matmul dot_S4096x128_S128x256_S4096x256_1_0_0_1_n_n none x w (constant (F := Ideal) S4096x256 .f32 0x00000000#32) (ix2 p j)
      = ∑ k : Fin 128, x (ix2 p k) * w (ix2 k j) := by
  simp only [matmul]
  rw [Ideal.matmul_constant_zero_apply, ← Equiv.sum_comp (ValueIdx.contrEquiv1 dot_S4096x128_S128x256_S4096x256_1_0_0_1_n_n 128 rfl rfl).symm]
  refine Finset.sum_congr rfl fun k _ => ?_
  have hk := ValueIdx.contrEquiv1_symm_val dot_S4096x128_S128x256_S4096x256_1_0_0_1_n_n 128 rfl rfl k
  have el : dot_S4096x128_S128x256_S4096x256_1_0_0_1_n_n.lhsIdx (ix2 p j) ((ValueIdx.contrEquiv1 dot_S4096x128_S128x256_S4096x256_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S4096x128_S128x256_S4096x256_1_0_0_1_n_n.rhsIdx (ix2 p j) ((ValueIdx.contrEquiv1 dot_S4096x128_S128x256_S4096x256_1_0_0_1_n_n 128 rfl rfl).symm k) = ix2 k j := funext fun a => Fin.ext (by
    match a with
    | ⟨0, _⟩ => exact (rhs_hid_0 _ _).trans hk
    | ⟨1, _⟩ => exact rhs_hid_1 _ _)
  rw [el, er]

/-! ## The readout's contraction: the [4096, 256] hidden block times the [256, 1] column

The same dimension numbers over the other shapes: at output index `(p, j)` and contraction position `k` the hidden block
is read at `(p, k)` and the column at `(k, j)`, and the sum runs over `Fin 256`. -/

private theorem lhs_out_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide), dif_pos (show (0 : Fin S4096x256.rank) ∈ dot_S4096x256_S256x1_S4096x1_1_0_0_1_n_n.lhsNonContracting by decide)]
  rfl
private theorem lhs_out_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
private theorem rhs_out_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
private theorem rhs_out_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide), dif_pos (show (1 : Fin S256x1.rank) ∈ dot_S4096x256_S256x1_S4096x1_1_0_0_1_n_n.rhsNonContracting by decide)]
  rfl

/-- Into a zero accumulator, the product at row `p` is `Σ_k h[p, k] · w[k, j]` over the 256 hidden units. -/
private theorem matmul_out_apply (x : FVec Ideal S4096x256 .bf16) (w : FVec Ideal S256x1 .bf16) (p : Fin 4096) (j : Fin 1) :
    matmul dot_S4096x256_S256x1_S4096x1_1_0_0_1_n_n none x w (constant (F := Ideal) S4096x1 .f32 0x00000000#32) (ix2 p j)
      = ∑ k : Fin 256, x (ix2 p k) * w (ix2 k j) := by
  simp only [matmul]
  rw [Ideal.matmul_constant_zero_apply, ← Equiv.sum_comp (ValueIdx.contrEquiv1 dot_S4096x256_S256x1_S4096x1_1_0_0_1_n_n 256 rfl rfl).symm]
  refine Finset.sum_congr rfl fun k _ => ?_
  have hk := ValueIdx.contrEquiv1_symm_val dot_S4096x256_S256x1_S4096x1_1_0_0_1_n_n 256 rfl rfl k
  have el : dot_S4096x256_S256x1_S4096x1_1_0_0_1_n_n.lhsIdx (ix2 p j) ((ValueIdx.contrEquiv1 dot_S4096x256_S256x1_S4096x1_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S4096x256_S256x1_S4096x1_1_0_0_1_n_n.rhsIdx (ix2 p j) ((ValueIdx.contrEquiv1 dot_S4096x256_S256x1_S4096x1_1_0_0_1_n_n 256 rfl rfl).symm k) = ix2 k j := funext fun a => Fin.ext (by
    match a with
    | ⟨0, _⟩ => exact (rhs_out_0 _ _).trans hk
    | ⟨1, _⟩ => exact rhs_out_1 _ _)
  rw [el, er]

/-! ## The payload at a row

At the ideal values a change of float format is the identity and a cast to the same shape is the identity, so the
payload at `(p, 0)` is the readout's sum over the hidden units `j` of `max (pre-activation at (p, j)) 0 · w2[j, 0]`, plus
the one bias `b2[0]` that the [1] → [1, 1] → [4096, 1] cast and row broadcast put in every row; the pre-activation at
`(p, j)` is the two first-layer sums plus `b1[j]`, which the [256] → [1, 256] → [4096, 256] cast and row broadcast put in
every row. That is `kscore` of row `p` of the two blocks, term by term. -/

/-- Row `p` of the block the body stores is the score of row `p` of the two embedding blocks. -/
theorem pay_apply (v0 v3 : Vec Ideal S4096x128 .f32) (v6 v9 : Vec Ideal S128x256 .f32) (v15 : Vec Ideal S256 .f32)
    (v22 : Vec Ideal S256x1 .f32) (v26 : Vec Ideal S1 .f32) (p : Fin 4096) :
    k0_pay1 (F := Ideal) v0 v3 v6 v9 v15 v22 v26 (ix2 p 0)
      = kscore (fun k => v0 (ix2 p k)) (fun k => v3 (ix2 p k)) v6 v9 v15 v22 v26 := by
  unfold k0_pay1
  -- the casts to the same shape drop out
  simp only [shapeCast_self]
  -- the outer sum: the readout's product at (p, 0) plus the bias's one entry
  rw [addf_apply, matmul_out_apply, broadcastTo_1b_ab_apply, shapeCast_a_1a_apply]
  unfold kscore
  refine congrArg (· + v26 (ix1 0)) (Finset.sum_congr rfl fun j _ => ?_)
  -- hidden unit j: the rectified sum of the two first-layer products and the bias's entry j
  rw [truncf_apply, truncf_apply, maximumf_apply, addf_apply, addf_apply, matmul_hid_apply, matmul_hid_apply,
    broadcastTo_1b_ab_apply, shapeCast_a_1a_apply, broadcast_apply]
  -- the operands' format changes are the identity, and the splat zero is the threshold's word
  simp only [truncf_apply]
  rfl

end Cert.EdgeMlp

end
-- ==== Proof.KernelArray.lean ====
import proofs.«431329_j30176440221878_1_alg».proof.Proof.Gen.KernelIdeal.Frame
import proofs.«431329_j30176440221878_1_alg».proof.Proof.Spec
import proofs.«431329_j30176440221878_1_alg».proof.Proof.PayValue
import Idealize.ShloMosaic.Lib.Pipeline.Value
import Idealize.ShloMosaic.Lib.ValueIdx

/-!
# The output column after the region

The region runs the perceptron on 123 blocks of 4096 edges. At point `t` the body reads rows
`4096 t … 4096 t + 4095` of the two gathered embedding arrays and the whole of the five small operands, and stores
4096 scores, which are written back as rows `4096 t …` of the output column. The 123 blocks tile the 503808 rows, so
after the region row `r` of the column holds the score of row `r` of the two gathered arrays (`outCol`).
-/

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeMlp

variable (m : (ℓ : Loc nD τ sig) → Buf (Elt Ideal) ℓ)

/-! ## The arrays the region finds, by their literal types -/

/-- The gathered rows of the first endpoints (padded to 503808 edges). -/
abbrev zuArr (c : Dev nD) : Vec Ideal S503808x128 .f32 := V m c main_v6
/-- The gathered rows of the second endpoints. -/
abbrev zvArr (c : Dev nD) : Vec Ideal S503808x128 .f32 := V m c main_v7
/-- The first half of the first layer, transposed. -/
abbrev wuArr (c : Dev nD) : Vec Ideal S128x256 .f32 := V m c main_v9
/-- The second half of the first layer, transposed. -/
abbrev wvArr (c : Dev nD) : Vec Ideal S128x256 .f32 := V m c main_v11
/-- The hidden bias. -/
abbrev b1Arr (c : Dev nD) : Vec Ideal S256 .f32 := V m c main_arg3
/-- The readout column. -/
abbrev w2Arr (c : Dev nD) : Vec Ideal S256x1 .f32 := V m c main_v12
/-- The readout bias. -/
abbrev b2Arr (c : Dev nD) : Vec Ideal S1 .f32 := V m c main_arg5

/-- The output column: row `r` is the score of row `r` of the two gathered arrays. -/
def outCol (c : Dev nD) : Vec Ideal S503808x1 .f32 := fun i =>
  kscore (fun k => zuArr m c (ix2 (⟨(i 0).val, (i 0).isLt⟩ : Fin 503808) k))
    (fun k => zvArr m c (ix2 (⟨(i 0).val, (i 0).isLt⟩ : Fin 503808) k))
    (wuArr m c) (wvArr m c) (b1Arr m c) (w2Arr m c) (b2Arr m c)

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two embedding windows and the output window sit at block row `t`, the five small
    operands at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem lt_points (t : Fin cfg0.N) : t.val < 123 := lt_of_lt_of_eq t.isLt N_0

/-! ## The blocks at a point -/

/-- Row `p` of the first embedding block at point `t` is row `4096 t + p` of the array. -/
theorem zu_blk (c : Dev nD) (t : Fin cfg0.N) (p : Fin 4096) (k : Fin 128) (r : Fin 503808) (hr : r.val = t.val * 4096 + p.val) :
    iblk m c 0 t (ix2 p k) = zuArr m c (ix2 r k) := by
  unfold iblk
  show V m c main_v6 (((cfg0.win 0).blk t).view.emb (ix2 p k)) = V m c main_v6 (ix2 r k)
  obtain ⟨e0, e1, -⟩ := idx_facts t
  refine congrArg (V m c main_v6) ?_
  funext a; apply Fin.ext
  match a with
  | ⟨0, _⟩ => show win0_0.index t (0 : Fin 2) * 4096 + 1 * p.val = r.val; omega
  | ⟨1, _⟩ => show win0_0.index t (1 : Fin 2) * 128 + 1 * k.val = k.val; omega

/-- Row `p` of the second embedding block at point `t` is row `4096 t + p` of the array. -/
theorem zv_blk (c : Dev nD) (t : Fin cfg0.N) (p : Fin 4096) (k : Fin 128) (r : Fin 503808) (hr : r.val = t.val * 4096 + p.val) :
    iblk m c 1 t (ix2 p k) = zvArr m c (ix2 r k) := by
  unfold iblk
  show V m c main_v7 (((cfg0.win 1).blk t).view.emb (ix2 p k)) = V m c main_v7 (ix2 r k)
  obtain ⟨-, -, e0, e1, -⟩ := idx_facts t
  refine congrArg (V m c main_v7) ?_
  funext a; apply Fin.ext
  match a with
  | ⟨0, _⟩ => show win0_1.index t (0 : Fin 2) * 4096 + 1 * p.val = r.val; omega
  | ⟨1, _⟩ => show win0_1.index t (1 : Fin 2) * 128 + 1 * k.val = k.val; omega

/-- The five small operands' blocks are the whole arrays at every point. -/
theorem wu_blk (c : Dev nD) (t : Fin cfg0.N) : iblk m c 2 t = wuArr m c := by
  unfold iblk
  funext y
  show V m c main_v9 (((cfg0.win 2).blk t).view.emb y) = V m c main_v9 y
  obtain ⟨-, -, -, -, e0, e1, -⟩ := idx_facts t
  refine congrArg (V m c main_v9) ?_
  funext a; apply Fin.ext
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem wv_blk (c : Dev nD) (t : Fin cfg0.N) : iblk m c 3 t = wvArr m c := by
  unfold iblk
  funext y
  show V m c main_v11 (((cfg0.win 3).blk t).view.emb y) = V m c main_v11 y
  obtain ⟨-, -, -, -, -, -, e0, e1, -⟩ := idx_facts t
  refine congrArg (V m c main_v11) ?_
  funext a; apply Fin.ext
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem b1_blk (c : Dev nD) (t : Fin cfg0.N) : iblk m c 4 t = b1Arr m c := by
  unfold iblk
  funext y
  show V m c main_arg3 (((cfg0.win 4).blk t).view.emb y) = V m c main_arg3 y
  obtain ⟨-, -, -, -, -, -, -, -, e0, -⟩ := idx_facts t
  refine congrArg (V m c main_arg3) ?_
  funext a; apply Fin.ext
  match a with
  | ⟨0, _⟩ => show win0_4.index t (0 : Fin 1) * 256 + 1 * (y 0).val = (y 0).val; omega

theorem w2_blk (c : Dev nD) (t : Fin cfg0.N) : iblk m c 5 t = w2Arr m c := by
  unfold iblk
  funext y
  show V m c main_v12 (((cfg0.win 5).blk t).view.emb y) = V m c main_v12 y
  obtain ⟨-, -, -, -, -, -, -, -, -, e0, e1, -⟩ := idx_facts t
  refine congrArg (V m c main_v12) ?_
  funext a; apply Fin.ext
  match a with
  | ⟨0, _⟩ => show win0_5.index t (0 : Fin 2) * 256 + 1 * (y 0).val = (y 0).val; omega
  | ⟨1, _⟩ => show win0_5.index t (1 : Fin 2) * 1 + 1 * (y 1).val = (y 1).val; omega

theorem b2_blk (c : Dev nD) (t : Fin cfg0.N) : iblk m c 6 t = b2Arr m c := by
  unfold iblk
  funext y
  show V m c main_arg5 (((cfg0.win 6).blk t).view.emb y) = V m c main_arg5 y
  obtain ⟨-, -, -, -, -, -, -, -, -, -, -, e0, -⟩ := idx_facts t
  refine congrArg (V m c main_arg5) ?_
  funext a; apply Fin.ext
  match a with
  | ⟨0, _⟩ => show win0_6.index t (0 : Fin 1) * 1 + 1 * (y 0).val = (y 0).val; omega

end Cert.KernelIdeal.Arr

end
-- ==== Proof.KernelColumn.lean ====
import proofs.«431329_j30176440221878_1_alg».proof.Proof.KernelArray

/-!
# What a point writes back, and the column after the last point

Point `t` writes back the 4096 scores the body stored: by the block reads they are rows `4096 t …` of `outCol`. Row `r` of
the column lies in the block of point `r / 4096`, so the blocks cover the column and it ends as `outCol`.
-/

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeMlp

variable (m : (ℓ : Loc nD τ sig) → Buf (Elt Ideal) ℓ)

/-- The body's stored block, entry `j`, from blocks that are rows of the arrays: the score of array row `r`. -/
theorem stored_row (x0 x1 : Vec Ideal S4096x128 .f32) (x2 x3 : Vec Ideal S128x256 .f32) (x4 : Vec Ideal S256 .f32)
    (x5 : Vec Ideal S256x1 .f32) (x6 : Vec Ideal S1 .f32) (zu zv : Vec Ideal S503808x128 .f32) (j : S4096x1.Idx) (r : Fin 503808)
    (h0 : ∀ k : Fin 128, x0 (ix2 (⟨(j 0).val, (j 0).isLt⟩ : Fin 4096) k) = zu (ix2 r k))
    (h1 : ∀ k : Fin 128, x1 (ix2 (⟨(j 0).val, (j 0).isLt⟩ : Fin 4096) k) = zv (ix2 r k)) :
    k0_pay1 (F := Ideal) x0 x1 x2 x3 x4 x5 x6 j
      = kscore (fun k => zu (ix2 r k)) (fun k => zv (ix2 r k)) x2 x3 x4 x5 x6 := by
  obtain ⟨p, q, rfl⟩ : ∃ (p : Fin 4096) (q : Fin 1), j = ix2 p q := ⟨j 0, j 1, eq_ix2 j⟩
  obtain rfl : q = 0 := Subsingleton.elim _ _
  rw [pay_apply]
  have e0 : (fun k : Fin 128 => x0 (ix2 p k)) = fun k => zu (ix2 r k) := funext h0
  have e1 : (fun k : Fin 128 => x1 (ix2 p k)) = fun k => zv (ix2 r k) := funext h1
  rw [e0, e1]

/-- WHAT POINT `t` WRITES BACK is block `t` of the column `outCol`. -/
theorem flushed7_eq (c : Dev nD) (t : Fin cfg0.N) :
    (dats m 0 c).flushed 7 t = ((cfg0.win 7).blk t).view.read (Elt Ideal) (outCol m c) := by
  show (cfg0.win 7).cut (grid0.coords t) ((dats m 0 c).after 7 t) = _
  rw [after0_7]
  unfold out0_7
  rw [View.canon_unit_zero hz2]
  simp only [View.ld_unit_zero (S := S4096x128) hz2, View.ld_unit_zero (S := S128x256) hz2, View.ld_unit_zero (S := S256) hz1,
    View.ld_unit_zero (S := S256x1) hz2, View.ld_unit_zero (S := S1) hz1]
  rw [wu_blk m c t, wv_blk m c t, b1_blk m c t, w2_blk m c t, b2_blk m c t]
  obtain ⟨-, -, -, -, -, -, -, -, -, -, -, -, e0, e1⟩ := idx_facts t
  have ht := lt_points t
  funext j
  show k0_pay1 (F := Ideal) (iblk m c 0 t) (iblk m c 1 t) (wuArr m c) (wvArr m c) (b1Arr m c) (w2Arr m c) (b2Arr m c) j
    = outCol m c (((cfg0.win 7).blk t).view.emb j)
  have hj : (j 0).val < 4096 := (j 0).isLt
  have hrow : ((((cfg0.win 7).blk t).view.emb j) 0).val = t.val * 4096 + (j 0).val := by
    show win0_7.index t (0 : Fin 2) * 4096 + 1 * (j 0).val = t.val * 4096 + (j 0).val
    omega
  unfold outCol
  exact stored_row (iblk m c 0 t) (iblk m c 1 t) (wuArr m c) (wvArr m c) (b1Arr m c) (w2Arr m c) (b2Arr m c) (zuArr m c) (zvArr m c) j
    ⟨((((cfg0.win 7).blk t).view.emb j) 0).val, ((((cfg0.win 7).blk t).view.emb j) 0).isLt⟩
    (fun k => zu_blk m c t ⟨(j 0).val, (j 0).isLt⟩ k _ hrow) (fun k => zv_blk m c t ⟨(j 0).val, (j 0).isLt⟩ k _ hrow)

/-- An index of the column is in point `t`'s block iff each coordinate is in the block's range on its axis. -/
theorem mem_blk7 (t : Fin cfg0.N) (i : S503808x1.Idx) :
    i ∈ ((cfg0.win 7).blk t).view.set ↔ ∀ a : Fin 2, win0_7.index t a * S4096x1.size a ≤ (i a).val ∧ (i a).val < win0_7.index t a * S4096x1.size a + S4096x1.size a := by
  show i ∈ ((View.whole main_v13).slice (win0_7.rect t)).set ↔ _
  rw [View.set_slice_whole, Rect.mem_set_unit]
  exact Iff.rfl

/-- Every row of the column is written back by the point of its block of 4096. -/
theorem cover7 (i : S503808x1.Idx) : ∃ t : Fin cfg0.N, (cfg0.win 7).flush t = true ∧ i ∈ ((cfg0.win 7).blk t).view.set := by
  have hi0 : (i 0).val < 503808 := (i 0).isLt
  have hi1 : (i 1).val < 1 := (i 1).isLt
  have hN : cfg0.N = 123 := N_0
  refine ⟨⟨(i 0).val / 4096, by rw [hN]; omega⟩, flush0_7 _, ?_⟩
  rw [mem_blk7]
  obtain ⟨-, -, -, -, -, -, -, -, -, -, -, -, e0, e1⟩ := idx_facts ⟨(i 0).val / 4096, by rw [hN]; omega⟩
  intro a
  match a with
  | ⟨0, _⟩ =>
    show win0_7.index _ (0 : Fin 2) * 4096 ≤ (i 0).val ∧ (i 0).val < win0_7.index _ (0 : Fin 2) * 4096 + 4096
    rw [e0]; show (i 0).val / 4096 * 4096 ≤ (i 0).val ∧ (i 0).val < (i 0).val / 4096 * 4096 + 4096; omega
  | ⟨1, _⟩ =>
    show win0_7.index _ (1 : Fin 2) * 1 ≤ (i 1).val ∧ (i 1).val < win0_7.index _ (1 : Fin 2) * 1 + 1
    rw [e1]; omega

/-- THE COLUMN after the run is `outCol`. -/
theorem final7 (c : Dev nD) : (dats m 0 c).arrAt 7 cfg0.N = outCol m c :=
  (dats m 0 c).arrAt_eq_of_cover 7 (outCol m c) (fun t _ => flushed7_eq m c t) cover7

end Cert.KernelIdeal.Arr

end
-- ==== Proof.PreDecode.lean ====
import proofs.«431329_j30176440221878_1_alg».proof.Pre_finite_inputs
import proofs.«431329_j30176440221878_1_alg».proof.Proof.Spec
import Idealize.ShloMosaic.Lib.ReduceAll
import Idealize.ShloMosaic.Lib.Affine
import Idealize.ShloMosaic.Lib.StableHlo.Predicate
import Idealize.ShloMosaic.Lib.Pipeline.Value
import Idealize.ShloMosaic.Lib.ValueIdx

noncomputable section

open Idealize.ShloMosaic Idealize.ShloMosaic.ValueIdx

namespace Cert.EdgeMlp

/-- Under the precondition every index word, read signed, lies in `[-100000, 100000)`. -/
theorem idx_range_of_pre [Cert.Pre_finite_inputs.Facts]
    (z : FVec Ideal Cert.Pre_finite_inputs.S100000x128 .f32) (ei : IVec Cert.Pre_finite_inputs.S2x500000 32)
    (W1 : FVec Ideal Cert.Pre_finite_inputs.S256x256 .f32) (b1 : FVec Ideal Cert.Pre_finite_inputs.S256 .f32)
    (W2 : FVec Ideal Cert.Pre_finite_inputs.S1x256 .f32) (b2 : FVec Ideal Cert.Pre_finite_inputs.S1 .f32)
    (h : Cert.Pre_finite_inputs.fn (F := Ideal) z ei W1 b1 W2 b2 = fun _ => 1#1) (a : Fin 2) (e : Fin 500000) :
    -100000 ≤ (ei (ix2 a e)).toInt ∧ (ei (ix2 a e)).toInt < 100000 := by
  have hlo : (4294867296#32 : BitVec 32).toInt = -100000 := by decide
  have hhi : (100000#32 : BitVec 32).toInt = 100000 := by decide
  -- the precondition at its one index is an `and` whose last operand is the reduction of the range tests
  have h0 := congrFun h ix0
  dsimp only [Cert.Pre_finite_inputs.fn, Cert.Pre_finite_inputs.fn_part1] at h0
  have hred := (IntOp.andi_eq_one.1 h0).2
  -- a reduction by `and` over every axis that is one had a one at every element
  haveI : Subsingleton Cert.Pre_finite_inputs.S_.Idx := ⟨fun a b => funext fun d => d.elim0⟩
  have hel := Host.reduce_andi_all _ _ _ _ _ hred (ix2 a e)
  -- the element is the `and` of the two signed compares against the broadcast bounds
  obtain ⟨hge, hlt⟩ := IntOp.andi_eq_one.1 hel
  have hge' := IntOp.cmpi_sge.1 hge
  have hlt' := IntOp.cmpi_slt.1 hlt
  -- a scalar broadcast reads the scalar at every index, and the scalar is the constant word
  rw [StableHlo.Predicate.bcast_scalar _ Cert.Pre_finite_inputs.Facts.h_S_] at hge' hlt'
  have hge'' : (4294867296#32 : BitVec 32).toInt ≤ (ei (ix2 a e)).toInt := hge'
  have hlt'' : (ei (ix2 a e)).toInt < (100000#32 : BitVec 32).toInt := hlt'
  rw [hlo] at hge''
  rw [hhi] at hlt''
  exact ⟨hge'', hlt''⟩

/-- A word in `[-100000, 100000)`, counted from the end when negative, lands in `[0, 99999]`: both range tests pass. -/
theorem norm_in_range (w : BitVec 32) (h : -100000 ≤ w.toInt ∧ w.toInt < 100000) :
    IntOp.andi (IntOp.cmpi .sge (Cert.Lib.normIdx 100000#32 w) 0#32)
      (IntOp.cmpi .sle (Cert.Lib.normIdx 100000#32 w) 99999#32) = 1#1 := by
  have h0 : (0#32 : BitVec 32).toInt = 0 := by decide
  have h9 : (99999#32 : BitVec 32).toInt = 99999 := by decide
  have hn : (100000#32 : BitVec 32).toInt = 100000 := by decide
  rw [IntOp.andi_eq_one, IntOp.cmpi_sge, IntOp.cmpi_sle, h0, h9]
  unfold Cert.Lib.normIdx
  by_cases hs : IntOp.cmpi .slt w 0#32 = 1#1
  · -- a negative word: the sum `w + 100000` lies in `[0, 100000)`, far inside the signed range, so it does not wrap
    rw [hs, select_one]
    rw [IntOp.cmpi_slt, h0] at hs
    have hadd : (IntOp.addi w 100000#32).toInt = w.toInt + 100000 := by
      show (w + 100000#32).toInt = w.toInt + 100000
      rw [BitVec.toInt_add, hn]
      exact Int.bmod_eq_of_le_mul_two (by omega) (by omega)
    rw [hadd]
    omega
  · -- a word that is not negative is kept
    rw [eq_zero_of_ne_one hs, select_zero]
    rw [IntOp.cmpi_slt, h0] at hs
    omega

/-- A left fold by `and` that starts at one and meets only ones ends at one. -/
private theorem foldl_andi_of_all {ι : Type} (f : ι → BitVec 1) (hf : ∀ n, f n = 1#1) :
    ∀ (l : List ι) (init : BitVec 1), init = 1#1 → l.foldl (fun r n => IntOp.andi r (f n)) init = 1#1
  | [], _, h => h
  | a :: l, _, h => foldl_andi_of_all f hf l _ (IntOp.andi_eq_one.2 ⟨h, hf a⟩)

/-- A reduction by `and` of an array of ones, from an initial one, is one at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl]
  exact foldl_andi_of_all x hx _ _ (hinit _)

end Cert.EdgeMlp

end
-- ==== Proof.TakeRows.lean ====
import proofs.«431329_j30176440221878_1_alg».proof.Proof.Gen.KernelIdeal
import proofs.«431329_j30176440221878_1_alg».proof.Proof.Spec
import proofs.«431329_j30176440221878_1_alg».proof.Proof.PreDecode
import Idealize.ShloMosaic.Lib.Pipeline.Value
import Idealize.ShloMosaic.Lib.ValueIdx
import Idealize.ShloMosaic.Lib.KernelVsHost

/-!
# The gathered rows the kernel's glue hands to the region

An endpoint row of the index array is sliced out, flattened and padded with 3808 zeros to 503808 entries (`padIdx`). The
take (`takeRows`) counts a negative entry from the end, tests the result against `[0, 99999]`, gathers the table's row at
it and keeps that row where the test passes, a filler word elsewhere. When every entry lies in `[-100000, 100000)` the test
passes everywhere and row `r` is the table's row `rowOf` of entry `r`.
-/

noncomputable section

open Idealize.ShloMosaic Idealize.ShloMosaic.ValueIdx

namespace Cert.KernelIdeal.Host

open Cert.KernelIdeal Cert.KernelIdeal.Facts₀ Cert.EdgeMlp

/-- Endpoint row 0 of the index array, flattened and padded with zeros to 503808 entries. -/
def padIdx0 (ei : IVec S2x500000 32) : IVec S503808 32 :=
  pad S503808 ![0] ![3808] ![0]
    (shapeCast S500000 (extractStridedSlice S1x500000 ![0, 0] ei slices_S2x500000_S1x500000_0_0) shapeCasts_S1x500000_S500000)
    (id (constantI S_ 32 0#32)) pads_S500000_S503808_038080 h_S_

/-- Endpoint row 1 of the index array, flattened and padded with zeros to 503808 entries. -/
def padIdx1 (ei : IVec S2x500000 32) : IVec S503808 32 :=
  pad S503808 ![0] ![3808] ![0]
    (shapeCast S500000 (extractStridedSlice S1x500000 ![1, 0] ei slices_S2x500000_S1x500000_1_0) shapeCasts_S1x500000_S500000)
    (id (constantI S_ 32 0#32)) pads_S500000_S503808_038080 h_S_

/-- The entries counted from the end when negative. -/
def normVec (u : IVec S503808 32) : IVec S503808 32 :=
  select (cmpi .slt u (broadcastInDim S503808 ![] bcast_S_S503808 (constantI S_ 32 0#32)))
    (addi u (broadcastInDim S503808 ![] bcast_S_S503808 (constantI S_ 32 100000#32))) u

/-- The same as the start-index column of the gather. -/
def normCol (u : IVec S503808 32) : IVec S503808x1 32 :=
  broadcastInDim S503808x1 ![0] bcast_S503808_S503808x1_0 (normVec u)

/-- The range test `0 ≤ · ≤ 99999` of every start index, reduced over the column's one place. -/
def inRange (u : IVec S503808 32) : IVec S503808 1 :=
  Host.reduce IntOp.andi
    (andi (cmpi .sge (normCol u) (broadcastInDim S503808x1 ![] bcast_S_S503808x1 (constantI S_ 32 0#32)))
      (cmpi .sle (normCol u) (broadcastInDim S503808x1 ![0, 1] bcast_S1x1_S503808x1_0_1
        (broadcastInDim S1x1 ![1] bcast_S1_S1x1_1 (constantI S1 32 99999#32)))))
    (constantI S_ 1 1#1) reducesTo_S503808x1_S503808_d1 h_S_

/-- The take: the gathered row where the test passes, the filler word elsewhere. -/
def takeRows (z : FVec Ideal S100000x128 .f32) (u : IVec S503808 32) : FVec Ideal S503808x128 .f32 :=
  select (broadcastInDim S503808x128 ![0] bcast_S503808_S503808x128_0 (inRange u))
    (Host.gather gather_S100000x128_S503808x1_S503808x128_1_0_n_n_0_1_1128 z (normCol u))
    (broadcastInDim S503808x128 ![] bcast_S_S503808x128 (constant (F := Ideal) S_ .f32 0x7FC00000#32))

/-- An entry before the padding is the index array's. -/
theorem padIdx0_apply_lt (ei : IVec S2x500000 32) (r : Fin 503808) (hr : r.val < 500000) :
    padIdx0 ei (ix1 r) = ei (ix2 (0 : Fin 2) (⟨r.val, hr⟩ : Fin 500000)) := by
  unfold padIdx0
  -- entry `r` lies inside the operand of the pad (no low padding, no interior padding): it is the flattened row's entry `r`
  refine (pad_apply_of_inside ![0] ![3808] ![0] _ _ pads_S500000_S503808_038080 h_S_ (ix1 r)
    (ix1 (⟨r.val, hr⟩ : Fin 500000)) (fun a => match a with
      | ⟨0, _⟩ => by show r.val = 0 + r.val * (0 + 1); omega)).trans ?_
  -- the flattening keeps the row-major position: entry `r` of the vector is entry `(0, r)` of the one-row slice
  refine (shapeCast_apply _ shapeCasts_S1x500000_S500000 (ix1 (⟨r.val, hr⟩ : Fin 500000))
    (ix2 (0 : Fin 1) (⟨r.val, hr⟩ : Fin 500000))
    (by rewrite [Shape.rowMajor_val_two, Shape.rowMajor_val_one]; show 0 * 500000 + r.val = r.val; omega)).trans ?_
  -- the slice starts at row 0, column 0
  exact extractStridedSlice_apply ![0, 0] ei slices_S2x500000_S1x500000_0_0 _
    (ix2 (0 : Fin 2) (⟨r.val, hr⟩ : Fin 500000)) (fun a => match a with
      | ⟨0, _⟩ => by show 0 = 0 + 0; omega
      | ⟨1, _⟩ => by show r.val = 0 + r.val; omega)

theorem padIdx1_apply_lt (ei : IVec S2x500000 32) (r : Fin 503808) (hr : r.val < 500000) :
    padIdx1 ei (ix1 r) = ei (ix2 (1 : Fin 2) (⟨r.val, hr⟩ : Fin 500000)) := by
  unfold padIdx1
  -- inside the operand of the pad: the flattened row's entry `r`
  refine (pad_apply_of_inside ![0] ![3808] ![0] _ _ pads_S500000_S503808_038080 h_S_ (ix1 r)
    (ix1 (⟨r.val, hr⟩ : Fin 500000)) (fun a => match a with
      | ⟨0, _⟩ => by show r.val = 0 + r.val * (0 + 1); omega)).trans ?_
  -- the flattening keeps the row-major position
  refine (shapeCast_apply _ shapeCasts_S1x500000_S500000 (ix1 (⟨r.val, hr⟩ : Fin 500000))
    (ix2 (0 : Fin 1) (⟨r.val, hr⟩ : Fin 500000))
    (by rewrite [Shape.rowMajor_val_two, Shape.rowMajor_val_one]; show 0 * 500000 + r.val = r.val; omega)).trans ?_
  -- the slice starts at row 1, column 0
  exact extractStridedSlice_apply ![1, 0] ei slices_S2x500000_S1x500000_1_0 _
    (ix2 (1 : Fin 2) (⟨r.val, hr⟩ : Fin 500000)) (fun a => match a with
      | ⟨0, _⟩ => by show 1 = 1 + 0; omega
      | ⟨1, _⟩ => by show r.val = 0 + r.val; omega)

/-- An entry of the padding is the zero word. -/
theorem padIdx0_apply_ge (ei : IVec S2x500000 32) (r : Fin 503808) (hr : 500000 ≤ r.val) : padIdx0 ei (ix1 r) = 0#32 := by
  unfold padIdx0
  -- entry `r` is past the operand's 500000 entries: the pad reads its padding value, the zero word
  refine (pad_apply_of_not_inside (s := S500000) (t := S503808) ![0] ![3808] ![0] _ _ pads_S500000_S503808_038080 h_S_
    (ix1 r) (0 : Fin 1) (fun h => ?_)).trans rfl
  have h3 : (r.val - 0) / (0 + 1) < 500000 := h.2.2
  omega

theorem padIdx1_apply_ge (ei : IVec S2x500000 32) (r : Fin 503808) (hr : 500000 ≤ r.val) : padIdx1 ei (ix1 r) = 0#32 := by
  unfold padIdx1
  -- past the operand's 500000 entries: the padding value, the zero word
  refine (pad_apply_of_not_inside (s := S500000) (t := S503808) ![0] ![3808] ![0] _ _ pads_S500000_S503808_038080 h_S_
    (ix1 r) (0 : Fin 1) (fun h => ?_)).trans rfl
  have h3 : (r.val - 0) / (0 + 1) < 500000 := h.2.2
  omega

/-- A vector laid along the first axis of a rectangle reads, at `(r, c)`, the vector at `r`. -/
private theorem bcast_first {α : Type} {n m : Nat} (h : (⟨1, ![n]⟩ : Shape).BroadcastsInDim ⟨2, ![n, m]⟩ ![0])
    (v : (⟨1, ![n]⟩ : Shape).Idx → α) (r : Fin n) (c : Fin m) :
    broadcastInDim ⟨2, ![n, m]⟩ ![0] h v (ix2 r c) = v (ix1 r) :=
  broadcastInDim_apply ![0] h v (ix2 r c) (ix1 r) (fun a => match a with
    | ⟨0, _⟩ => by
      have hr := r.isLt
      show r.val = if n = 1 then 0 else r.val
      split <;> omega)

/-- The start-index column at `(r, 0)` is entry `r` counted from the end when negative. -/
private theorem normCol_apply (u : IVec S503808 32) (r : Fin 503808) :
    normCol u (ix2 r (0 : Fin 1)) = Cert.Lib.normIdx 100000#32 (u (ix1 r)) := by
  unfold normCol
  -- the column at `(r, 0)` is the vector at `r`; there the compare, the sum and the select act on the entry, and the two
  -- broadcast scalars read their constants
  exact (bcast_first _ (normVec u) r 0).trans rfl

/-- With every entry in `[-100000, 100000)` the range test passes at every entry. -/
private theorem inRange_apply (u : IVec S503808 32)
    (hu : ∀ r : Fin 503808, -100000 ≤ (u (ix1 r)).toInt ∧ (u (ix1 r)).toInt < 100000) (r : Fin 503808) :
    inRange u (ix1 r) = 1#1 := by
  unfold inRange
  -- a reduction by `and` of ones from a one is one: it remains to see a one at every place `(r', 0)` of the column
  refine reduce_andi_of_all _ _ _ _ (fun i => ?_) (fun _ => rfl) (ix1 r)
  obtain ⟨r', c, rfl⟩ : ∃ (r' : Fin 503808) (c : Fin 1), i = ix2 r' c := ⟨i 0, i 1, eq_ix2 i⟩
  obtain rfl : c = 0 := Subsingleton.elim _ _
  -- there the two compares are against the broadcast bounds `0` and `99999`
  show IntOp.andi (IntOp.cmpi .sge (normCol u (ix2 r' (0 : Fin 1))) 0#32)
    (IntOp.cmpi .sle (normCol u (ix2 r' (0 : Fin 1))) 99999#32) = 1#1
  rw [normCol_apply]
  exact norm_in_range _ (hu r')

/-- THE TAKE READ AT `(r, k)`: with every entry in `[-100000, 100000)`, the table's row `rowOf` of entry `r`. -/
theorem takeRows_apply (z : FVec Ideal S100000x128 .f32) (u : IVec S503808 32)
    (hu : ∀ r : Fin 503808, -100000 ≤ (u (ix1 r)).toInt ∧ (u (ix1 r)).toInt < 100000) (r : Fin 503808) (k : Fin 128) :
    takeRows z u (ix2 r k) = z (ix2 (rowOf (u (ix1 r))) k) := by
  unfold takeRows
  -- the mask at `(r, k)` is the range test of entry `r`, which passes: the select keeps the gathered row
  rw [select_apply, bcast_first, inRange_apply u hu r, select_one]
  -- the gather reads the table's row at the clamped start word, and the start word is the normalized entry
  refine (Cert.Lib.gather_rows_apply (by decide) gather_S100000x128_S503808x1_S503808x128_1_0_n_n_0_1_1128_wf z (normCol u)
    r k).trans ?_
  rw [normCol_apply]
  rfl

end Cert.KernelIdeal.Host

end
-- ==== Proof.Weights.lean ====
import proofs.«431329_j30176440221878_1_alg».proof.Proof.Gen.KernelIdeal
import proofs.«431329_j30176440221878_1_alg».proof.Proof.Spec
import Idealize.ShloMosaic.Lib.Pipeline.Value
import Idealize.ShloMosaic.Lib.ValueIdx
import Idealize.ShloMosaic.Lib.ValueLayout

/-!
# The weights as the region finds them

The glue cuts the first layer `W1` (256 hidden units × 256 concatenated columns) into its column ranges `[0, 128)` and
`[128, 256)` and transposes each to 128 × 256; the readout `W2` (1 × 256) is transposed to a 256 × 1 column.
-/

noncomputable section

open Idealize.ShloMosaic Idealize.ShloMosaic.ValueIdx

namespace Cert.KernelIdeal.Host

open Cert.KernelIdeal Cert.KernelIdeal.Facts₀ Cert.EdgeMlp

/-- The first half of `W1`, transposed: entry `(k, j)` is `W1[j, k]`. -/
theorem w1u_apply (W1 : FVec Ideal S256x256 .f32) (k : Fin 128) (j : Fin 256) :
    transpose S128x256 [1, 0] (extractStridedSlice S256x128 ![0, 0] W1 slices_S256x256_S256x128_0_0) transposes_S256x128_S128x256_1_0
      (ix2 k j) = W1 (ix2 j (lo k)) := by
  -- the transpose reads the slice at (j, k); the slice reads W1 at its row j and column 0 + k
  refine (transpose_ix2_apply _ _ k j).trans ?_
  exact extractStridedSlice_apply ![0, 0] W1 slices_S256x256_S256x128_0_0 (ix2 j k) (ix2 j (lo k)) (fun a => match a with
    | ⟨0, _⟩ => by show j.val = 0 + j.val; omega
    | ⟨1, _⟩ => show (lo k).val = 0 + k.val from (Nat.zero_add k.val).symm)

/-- The second half of `W1`, transposed: entry `(k, j)` is `W1[j, 128 + k]`. -/
theorem w1v_apply (W1 : FVec Ideal S256x256 .f32) (k : Fin 128) (j : Fin 256) :
    transpose S128x256 [1, 0] (extractStridedSlice S256x128 ![0, 128] W1 slices_S256x256_S256x128_0_128) transposes_S256x128_S128x256_1_0
      (ix2 k j) = W1 (ix2 j (hi k)) := by
  -- the transpose reads the slice at (j, k); the slice reads W1 at its row j and column 128 + k
  refine (transpose_ix2_apply _ _ k j).trans ?_
  exact extractStridedSlice_apply ![0, 128] W1 slices_S256x256_S256x128_0_128 (ix2 j k) (ix2 j (hi k)) (fun a => match a with
    | ⟨0, _⟩ => by show j.val = 0 + j.val; omega
    | ⟨1, _⟩ => by show (hi k).val = 128 + k.val; rfl)

/-- The readout, transposed: entry `(j, 0)` is `W2[0, j]`. -/
theorem w2_apply (W2 : FVec Ideal S1x256 .f32) (j : Fin 256) :
    transpose S256x1 [1, 0] W2 transposes_S1x256_S256x1_1_0 (ix2 j (0 : Fin 1)) = W2 (ix2 (0 : Fin 1) j) := by
  -- the transpose exchanges the two coordinates
  exact transpose_ix2_apply W2 transposes_S1x256_S256x1_1_0 j (0 : Fin 1)

end Cert.KernelIdeal.Host

end
-- ==== Proof.HostArrays.lean ====
import proofs.«431329_j30176440221878_1_alg».proof.Proof.KernelArray
import proofs.«431329_j30176440221878_1_alg».proof.Proof.TakeRows
import proofs.«431329_j30176440221878_1_alg».proof.Proof.Weights
import Idealize.ShloMosaic.Lib.StableHlo.Run

/-!
# The arrays the region finds, as functions of the inputs

Before the region the glue gathers the endpoint rows (`Host.takeRows` of the padded index rows), cuts and transposes the
first layer, and transposes the readout; the two biases are passed as given. Each array the region finds is that term of
the launch memory.
-/

noncomputable section

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen Cert.EdgeMlp

variable (m : (ℓ : Loc nD τ sig) → Buf (Elt Ideal) ℓ)

set_option maxHeartbeats 4000000 in
set_option maxRecDepth 65536 in
/-- The first endpoints' gathered rows. -/
theorem zuArr_eq (c : Dev nD) :
    zuArr m c = Host.takeRows (m ((c : Thread nD τ).loc main_arg0)) (Host.padIdx0 (m ((c : Thread nD τ).loc main_arg1))) := by
  show V m c main_v6 = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [cast_eq]
  unfold Host.takeRows Host.inRange Host.normCol Host.normVec Host.padIdx0
  rfl

set_option maxHeartbeats 4000000 in
set_option maxRecDepth 65536 in
/-- The second endpoints' gathered rows. -/
theorem zvArr_eq (c : Dev nD) :
    zvArr m c = Host.takeRows (m ((c : Thread nD τ).loc main_arg0)) (Host.padIdx1 (m ((c : Thread nD τ).loc main_arg1))) := by
  show V m c main_v7 = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [cast_eq]
  unfold Host.takeRows Host.inRange Host.normCol Host.normVec Host.padIdx1
  rfl

set_option maxHeartbeats 2000000 in
/-- The first half of the first layer, transposed. -/
theorem wuArr_eq (c : Dev nD) :
    wuArr m c = transpose S128x256 [1, 0]
      (extractStridedSlice S256x128 ![0, 0] (m ((c : Thread nD τ).loc main_arg2)) Facts₀.slices_S256x256_S256x128_0_0) Facts₀.transposes_S256x128_S128x256_1_0 := by
  show V m c main_v9 = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

set_option maxHeartbeats 2000000 in
/-- The second half of the first layer, transposed. -/
theorem wvArr_eq (c : Dev nD) :
    wvArr m c = transpose S128x256 [1, 0]
      (extractStridedSlice S256x128 ![0, 128] (m ((c : Thread nD τ).loc main_arg2)) Facts₀.slices_S256x256_S256x128_0_128) Facts₀.transposes_S256x128_S128x256_1_0 := by
  show V m c main_v11 = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

set_option maxHeartbeats 2000000 in
/-- The readout, transposed. -/
theorem w2Arr_eq (c : Dev nD) :
    w2Arr m c = transpose S256x1 [1, 0] (m ((c : Thread nD τ).loc main_arg4)) Facts₀.transposes_S1x256_S256x1_1_0 := by
  show V m c main_v12 = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

/-- The hidden bias is passed as given. -/
theorem b1Arr_eq (c : Dev nD) : b1Arr m c = m ((c : Thread nD τ).loc main_arg3) := V_main_arg3 m c

/-- The readout bias is passed as given. -/
theorem b2Arr_eq (c : Dev nD) : b2Arr m c = m ((c : Thread nD τ).loc main_arg5) := V_main_arg5 m c

end Cert.KernelIdeal.Arr

end
-- ==== Proof.TailRead.lean ====
import proofs.«431329_j30176440221878_1_alg».proof.Proof.Gen.KernelIdeal
import proofs.«431329_j30176440221878_1_alg».proof.Proof.Spec
import Idealize.ShloMosaic.Lib.Pipeline.Value
import Idealize.ShloMosaic.Lib.ValueIdx
import Idealize.ShloMosaic.Lib.ValueLayout

/-!
# The glue after the region

The first 500000 rows of the 503808 × 1 output column are kept and flattened: entry `e` of the result is row `e` of the column.
-/

noncomputable section

open Idealize.ShloMosaic Idealize.ShloMosaic.ValueIdx

namespace Cert.KernelIdeal.Host

open Cert.KernelIdeal Cert.KernelIdeal.Facts₀ Cert.EdgeMlp

/-- Entry `e` of the sliced and flattened column is the column's row `e`. -/
theorem tail_apply (col : FVec Ideal S503808x1 .f32) (e : Fin 500000) :
    shapeCast S500000 (extractStridedSlice S500000x1 ![0, 0] col slices_S503808x1_S500000x1_0_0) shapeCasts_S500000x1_S500000 (ix1 e)
      = col (ix2 (⟨e.val, by have := e.isLt; omega⟩ : Fin 503808) (0 : Fin 1)) := by
  -- the flatten reads row-major: entry `e` of the flat result is entry `(e, 0)` of the 500000 × 1 slice
  generalize hy : extractStridedSlice S500000x1 ![0, 0] col slices_S503808x1_S500000x1_0_0 = y
  refine (shapeCast_apply y shapeCasts_S500000x1_S500000 (ix1 e) (ix2 e (0 : Fin 1)) ?_).trans ?_
  · rewrite [Shape.rowMajor_val_two, Shape.rowMajor_val_one]
    show e.val * 1 + 0 = e.val
    omega
  -- the slice starts at offset (0, 0): its entry `(e, 0)` is the column's entry `(e, 0)`
  · subst hy
    exact extractStridedSlice_apply ![0, 0] col slices_S503808x1_S500000x1_0_0 (ix2 e (0 : Fin 1))
      (ix2 (⟨e.val, by have := e.isLt; omega⟩ : Fin 503808) (0 : Fin 1)) (fun a => by
      match a with
      | ⟨0, _⟩ => show e.val = 0 + e.val; omega
      | ⟨1, _⟩ => show (0 : Nat) = 0 + 0; omega)

end Cert.KernelIdeal.Host

end
-- ==== Proof.KernelRun.lean ====
import proofs.«431329_j30176440221878_1_alg».proof.Defs
import proofs.«431329_j30176440221878_1_alg».proof.Proof.Gen.Pre_finite_inputs
import proofs.«431329_j30176440221878_1_alg».proof.Proof.KernelColumn
import proofs.«431329_j30176440221878_1_alg».proof.Proof.HostArrays
import proofs.«431329_j30176440221878_1_alg».proof.Proof.TailRead
import proofs.«431329_j30176440221878_1_alg».proof.Proof.PreDecode
import Idealize.ShloMosaic.Lib.StableHlo.Run

/-!
# The kernel program's run, with its result named

Under the precondition every entry of the two padded index rows lies in `[-100000, 100000)` (the padding is zero), so
the gathered arrays hold table rows; row `e < 500000` of the output column is then the specification's score of edge
`e`. After the region the glue keeps those rows and flattens them: the program's result is the specification.
-/

noncomputable section

namespace Cert.KernelIdeal.Arr

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Facts₀ Cert.EdgeMlp

variable (m : (ℓ : Loc nD τ sig) → Buf (Elt Ideal) ℓ)

/-- The specification at the launch memory of core `c`. -/
abbrev spec (c : Dev nD) : Vec Ideal S500000 .f32 :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- Under the precondition every entry of the first padded index row is in range. -/
theorem pad0_range (hpre : Cert.Pre_KernelIdeal m) (c : Dev nD) (r : Fin 503808) :
    -100000 ≤ (Host.padIdx0 (m ((c.tc : Thread nD τ).loc main_arg1)) (ix1 r)).toInt
      ∧ (Host.padIdx0 (m ((c.tc : Thread nD τ).loc main_arg1)) (ix1 r)).toInt < 100000 := by
  by_cases hr : r.val < 500000
  · rw [Host.padIdx0_apply_lt _ r hr]
    exact idx_range_of_pre _ _ _ _ _ _ (hpre c) 0 ⟨r.val, hr⟩
  · rw [Host.padIdx0_apply_ge _ r (by omega)]
    constructor <;> decide

/-- Under the precondition every entry of the second padded index row is in range. -/
theorem pad1_range (hpre : Cert.Pre_KernelIdeal m) (c : Dev nD) (r : Fin 503808) :
    -100000 ≤ (Host.padIdx1 (m ((c.tc : Thread nD τ).loc main_arg1)) (ix1 r)).toInt
      ∧ (Host.padIdx1 (m ((c.tc : Thread nD τ).loc main_arg1)) (ix1 r)).toInt < 100000 := by
  by_cases hr : r.val < 500000
  · rw [Host.padIdx1_apply_lt _ r hr]
    exact idx_range_of_pre _ _ _ _ _ _ (hpre c) 1 ⟨r.val, hr⟩
  · rw [Host.padIdx1_apply_ge _ r (by omega)]
    constructor <;> decide

/-- Row `e < 500000` of the output column is the specification's score of edge `e`. -/
theorem outCol_apply (hpre : Cert.Pre_KernelIdeal m) (c : Dev nD) (e : Fin 500000) (r : Fin 503808) (hr : r.val = e.val) :
    outCol m c (ix2 r (0 : Fin 1)) = spec m c (ix1 e) := by
  have hlt : r.val < 500000 := by have := e.isLt; omega
  have he : (⟨r.val, hlt⟩ : Fin 500000) = e := Fin.ext hr
  refine Eq.trans ?_ (G_apply _ _ _ _ _ _ e).symm
  show kscore (fun k => zuArr m c (ix2 r k)) (fun k => zvArr m c (ix2 r k)) (wuArr m c) (wvArr m c) (b1Arr m c) (w2Arr m c) (b2Arr m c) = _
  have hu : (fun k : Fin 128 => zuArr m c (ix2 r k))
      = fun k => m ((c.tc : Thread nD τ).loc main_arg0) (ix2 (rowOf (m ((c.tc : Thread nD τ).loc main_arg1) (ix2 (0 : Fin 2) e))) k) := by
    funext k
    rw [zuArr_eq, Host.takeRows_apply _ _ (pad0_range m hpre c) r k, Host.padIdx0_apply_lt _ r hlt, he]
  have hv : (fun k : Fin 128 => zvArr m c (ix2 r k))
      = fun k => m ((c.tc : Thread nD τ).loc main_arg0) (ix2 (rowOf (m ((c.tc : Thread nD τ).loc main_arg1) (ix2 (1 : Fin 2) e))) k) := by
    funext k
    rw [zvArr_eq, Host.takeRows_apply _ _ (pad1_range m hpre c) r k, Host.padIdx1_apply_lt _ r hlt, he]
  rw [hu, hv, b1Arr_eq, b2Arr_eq]
  refine kscore_eq_score _ _ _ _ _ _ _ (m ((c.tc : Thread nD τ).loc main_arg2)) (m ((c.tc : Thread nD τ).loc main_arg4)) ?_ ?_ ?_
  · intro k j; rw [wuArr_eq]; exact Host.w1u_apply _ k j
  · intro k j; rw [wvArr_eq]; exact Host.w1v_apply _ k j
  · intro j; rw [w2Arr_eq]; exact Host.w2_apply _ j

/-- What the glue after the region leaves in the result: the specification. -/
theorem result_eq (hpre : Cert.Pre_KernelIdeal m) (c : Dev nD) :
    Pipeline.afterTail₀ cfgs (dats m) 0 (V0 m) [hostOps1] c main_v15 = spec m c := by
  have hcol : Pipeline.withArrays (cfgs 0).spec c (V0 m c) (fun w => (dats m 0 c).arrAt w (cfgs 0).N) (Proc.devRef .tc main_v13)
      = outCol m c :=
    (Pipeline.withArrays_arr spec0 launch0.win.arr_inj c _ _ 7).trans (final7 m c)
  unfold Pipeline.afterTail₀
  show StableHlo.after hostOps1 _ (Proc.devRef .tc main_v15) = _
  after_results
  funext i
  obtain ⟨e, rfl⟩ : ∃ e : Fin 500000, i = ix1 e := ⟨i 0, eq_ix1 i⟩
  show shapeCast S500000 (extractStridedSlice S500000x1 ![0, 0]
      (Pipeline.withArrays (cfgs 0).spec c (V0 m c) (fun w => (dats m 0 c).arrAt w (cfgs 0).N) (Proc.devRef .tc main_v13))
      Facts₀.slices_S503808x1_S500000x1_0_0) Facts₀.shapeCasts_S500000x1_S500000 (ix1 e) = _
  rw [hcol, Host.tail_apply]
  exact outCol_apply m hpre c e _ rfl

/-- THE RUN: every weakly fair execution of the kernel program terminates with its result at the specification and its
    six arguments unchanged. The result and four of the arguments are buffers the pipeline does not stage, read after the
    glue that follows the region; the two biases are staged inputs, which the pipeline leaves as it found them. -/
theorem kernel_run (ρ : Dev nD → PrngReg) (hpre : Cert.Pre_KernelIdeal m) :
    θ_run defs (onTc (τ := τ) (main (F := Ideal))) ⟨m, fun _ => 0, ρ⟩ (fun r => ∀ c : Dev nD,
      r.2.mem ((c.tc : Thread nD τ).loc main_v15) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v15 (Pipeline.mem_restRefs_of main_v15 (by decide) (by decide))).trans (result_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c)))⟩)
    (run_main m ρ)

end Cert.KernelIdeal.Arr

end
-- ==== Proof.RefValue.lean ====
import proofs.«431329_j30176440221878_1_alg».proof.Proof.Gen.ReferenceIdeal.Read
import proofs.«431329_j30176440221878_1_alg».proof.Proof.Spec
import Idealize.ShloMosaic.Lib.Pipeline.Value
import Idealize.ShloMosaic.Lib.ValueIdx
import Mathlib.Algebra.BigOperators.Fin

noncomputable section

open scoped BigOperators
open Idealize.ShloMosaic Idealize.ShloMosaic.ValueIdx

namespace Cert.EdgeMlp

open Cert.ReferenceIdeal

/-! ## The one algebraic step: a sum over 256 columns is the sum over its two halves -/

/-- A sum over `Fin 256` splits into the sums over the first 128 places (`lo`) and the last 128 (`hi`).
    Only commutativity and associativity of the addition are used. -/
private theorem sum_lo_hi {M : Type} [AddCommMonoid M] (f : Fin 256 → M) :
    ∑ k : Fin 256, f k = ∑ k : Fin 128, f (lo k) + ∑ k : Fin 128, f (hi k) :=
  Fin.sum_univ_add (a := 128) (b := 128) f

/-! ## The two gathers: row `e` of each is the table's row at the edge's endpoint -/

/-- The printed dimension numbers of the two gathers are those of a row gather. -/
private theorem gather_dims_eq :
    gather_S100000x128_S500000x1_S500000x128_1_0_n_n_0_1_1128
      = Cert.Lib.rowGatherDims 100000 128 500000 Gen.gather_S100000x128_S500000x1_S500000x128_1_0_n_n_0_1_1128_wf := rfl

/-- Row 0 of the index array, flattened, at edge `e`: the slice keeps row 0 and the reshape drops the unit axis. -/
private theorem v1_at (ei : (⟨S2x500000, .i32⟩ : BufTy).Contents (Elt Ideal)) (e : Fin 500000) :
    Read.val_main_v1 (F := Ideal) ei (ix1 e) = ei (ix2 (0 : Fin 2) e) := by
  rw [Read.val_main_v1_apply, Read.val_main_v0_apply]
  congr 1
  funext a
  match a with
  | ⟨0, _⟩ => rfl
  | ⟨1, _⟩ => exact Fin.ext (Nat.mod_eq_of_lt e.isLt)

/-- Row 1 of the index array, flattened, at edge `e`: the slice keeps row 1 and the reshape drops the unit axis. -/
private theorem v3_at (ei : (⟨S2x500000, .i32⟩ : BufTy).Contents (Elt Ideal)) (e : Fin 500000) :
    Read.val_main_v3 (F := Ideal) ei (ix1 e) = ei (ix2 (1 : Fin 2) e) := by
  rw [Read.val_main_v3_apply, Read.val_main_v2_apply]
  congr 1
  funext a
  match a with
  | ⟨0, _⟩ => rfl
  | ⟨1, _⟩ => exact Fin.ext (Nat.mod_eq_of_lt e.isLt)

/-- The first gather's start word at edge `e`: the source endpoint, counted from the end when negative. -/
private theorem start0 (ei : (⟨S2x500000, .i32⟩ : BufTy).Contents (Elt Ideal)) (e : Fin 500000) :
    Read.val_main_v9 (F := Ideal) ei (ix2 e (0 : Fin 1)) = Cert.Lib.normIdx 100000#32 (ei (ix2 (0 : Fin 2) e)) := by
  rw [Read.val_main_v9_apply]
  have hi : Read.idx_main_v9 (ix2 e (0 : Fin 1)) = ix1 e := by
    funext a
    match a with
    | ⟨0, _⟩ => rfl
  rw [hi, Read.val_main_v8_apply, Read.val_main_v5_apply, Read.val_main_v7_apply, Read.val_main_v4_apply,
    Read.val_main_v6_apply, Read.val_main_c_apply, Read.val_main_c_0_apply, v1_at]
  rfl

/-- The second gather's start word at edge `e`: the target endpoint, counted from the end when negative. -/
private theorem start1 (ei : (⟨S2x500000, .i32⟩ : BufTy).Contents (Elt Ideal)) (e : Fin 500000) :
    Read.val_main_v16 (F := Ideal) ei (ix2 e (0 : Fin 1)) = Cert.Lib.normIdx 100000#32 (ei (ix2 (1 : Fin 2) e)) := by
  rw [Read.val_main_v16_apply]
  have hi : Read.idx_main_v16 (ix2 e (0 : Fin 1)) = ix1 e := by
    funext a
    match a with
    | ⟨0, _⟩ => rfl
  rw [hi, Read.val_main_v15_apply, Read.val_main_v12_apply, Read.val_main_v14_apply, Read.val_main_v11_apply,
    Read.val_main_v13_apply, Read.val_main_c_1_apply, Read.val_main_c_2_apply, v3_at]
  rfl

/-- Row `e` of the first gather is the table's row at the source endpoint. -/
private theorem row0 (z : (⟨S100000x128, .f32⟩ : BufTy).Contents (Elt Ideal)) (ei : (⟨S2x500000, .i32⟩ : BufTy).Contents (Elt Ideal))
    (e : Fin 500000) (k : Fin 128) :
    Read.val_main_v10 (F := Ideal) z ei (ix2 e k) = z (ix2 (rowOf (ei (ix2 (0 : Fin 2) e))) k) := by
  unfold Read.val_main_v10
  rw [gather_dims_eq]
  refine (Cert.Lib.gather_rows_apply (by decide) _ z _ e k).trans ?_
  rw [start0]
  rfl

/-- Row `e` of the second gather is the table's row at the target endpoint. -/
private theorem row1 (z : (⟨S100000x128, .f32⟩ : BufTy).Contents (Elt Ideal)) (ei : (⟨S2x500000, .i32⟩ : BufTy).Contents (Elt Ideal))
    (e : Fin 500000) (k : Fin 128) :
    Read.val_main_v17 (F := Ideal) z ei (ix2 e k) = z (ix2 (rowOf (ei (ix2 (1 : Fin 2) e))) k) := by
  unfold Read.val_main_v17
  rw [gather_dims_eq]
  refine (Cert.Lib.gather_rows_apply (by decide) _ z _ e k).trans ?_
  rw [start1]
  rfl

/-! ## The concatenation: columns below 128 read the first gather, column `128 + k` the second at `k` -/

/-- Column `lo k` of the concatenated pair is column `k` of the first gather. -/
private theorem cat_lo (z : (⟨S100000x128, .f32⟩ : BufTy).Contents (Elt Ideal)) (ei : (⟨S2x500000, .i32⟩ : BufTy).Contents (Elt Ideal))
    (e : Fin 500000) (k : Fin 128) :
    Read.val_main_v18 (F := Ideal) z ei (ix2 e (lo k)) = Read.val_main_v10 (F := Ideal) z ei (ix2 e k) := by
  unfold Read.val_main_v18
  generalize Read.val_main_v10 (F := Ideal) z ei = x
  generalize Read.val_main_v17 (F := Ideal) z ei = y
  exact concatenate_pair_apply_left (t := S500000x256) (s₁ := S500000x128) (s₂ := S500000x128) (1 : Fin 2) x y
    Gen.concatenates_S500000x128_S500000x128_S500000x256_d1 (ix2 e (lo k)) rfl (ix2 e k) (fun b => by
      match b with
      | ⟨0, _⟩ => rfl
      | ⟨1, _⟩ => rfl)

/-- Column `hi k` of the concatenated pair is column `k` of the second gather. -/
private theorem cat_hi (z : (⟨S100000x128, .f32⟩ : BufTy).Contents (Elt Ideal)) (ei : (⟨S2x500000, .i32⟩ : BufTy).Contents (Elt Ideal))
    (e : Fin 500000) (k : Fin 128) :
    Read.val_main_v18 (F := Ideal) z ei (ix2 e (hi k)) = Read.val_main_v17 (F := Ideal) z ei (ix2 e k) := by
  unfold Read.val_main_v18
  generalize Read.val_main_v10 (F := Ideal) z ei = x
  generalize Read.val_main_v17 (F := Ideal) z ei = y
  exact concatenate_pair_apply_right (t := S500000x256) (s₁ := S500000x128) (s₂ := S500000x128) (1 : Fin 2) x y
    Gen.concatenates_S500000x128_S500000x128_S500000x256_d1 (ix2 e (hi k)) rfl rfl (ix2 e k)
    (fun b hb => by
      match b with
      | ⟨0, _⟩ => rfl
      | ⟨1, _⟩ => exact absurd rfl hb)
    (Nat.add_comm k.val 128)

/-! ## The two layers at an index -/

/-- The hidden unit `j` of edge `e` before the rectifier: the row of the concatenated pair against row `j` of `W1`. -/
private theorem hidden_at (z : (⟨S100000x128, .f32⟩ : BufTy).Contents (Elt Ideal)) (ei : (⟨S2x500000, .i32⟩ : BufTy).Contents (Elt Ideal))
    (W1 : (⟨S256x256, .f32⟩ : BufTy).Contents (Elt Ideal)) (e : Fin 500000) (j : Fin 256) :
    Read.val_main_v20 (F := Ideal) z ei W1 (ix2 e j)
      = ∑ k : Fin 128, z (ix2 (rowOf (ei (ix2 (0 : Fin 2) e))) k) * W1 (ix2 j (lo k))
        + ∑ k : Fin 128, z (ix2 (rowOf (ei (ix2 (1 : Fin 2) e))) k) * W1 (ix2 j (hi k)) := by
  rw [Read.val_main_v20_apply, sum_lo_hi]
  have hl : ∀ c : Fin 256, Read.lidx_main_v20 (ix2 e j) c = ix2 e c := fun c => by
    funext a
    match a with
    | ⟨0, _⟩ => rfl
    | ⟨1, _⟩ => rfl
  have hr : ∀ c : Fin 256, Read.val_main_v19 (F := Ideal) W1 (Read.ridx_main_v20 (ix2 e j) c) = W1 (ix2 j c) := fun c => by
    rw [Read.val_main_v19_apply]
    congr 1
    funext a
    match a with
    | ⟨0, _⟩ => rfl
    | ⟨1, _⟩ => rfl
  congr 1
  · refine Finset.sum_congr rfl fun k _ => ?_
    rw [hl, hr, cat_lo, row0]
  · refine Finset.sum_congr rfl fun k _ => ?_
    rw [hl, hr, cat_hi, row1]

/-- The reference's last stage is the specification. -/
theorem ref_eq_G (z : (⟨S100000x128, .f32⟩ : BufTy).Contents (Elt Ideal)) (ei : (⟨S2x500000, .i32⟩ : BufTy).Contents (Elt Ideal))
    (W1 : (⟨S256x256, .f32⟩ : BufTy).Contents (Elt Ideal)) (b1 : (⟨S256, .f32⟩ : BufTy).Contents (Elt Ideal))
    (W2 : (⟨S1x256, .f32⟩ : BufTy).Contents (Elt Ideal)) (b2 : (⟨S1, .f32⟩ : BufTy).Contents (Elt Ideal)) :
    Cert.ReferenceIdeal.Read.val_main_v30 (F := Ideal) z ei W1 b1 W2 b2 = G z ei W1 b1 W2 b2 := by
  funext i
  obtain ⟨e, rfl⟩ : ∃ e : Fin 500000, i = ix1 e := ⟨i 0, eq_ix1 i⟩
  rw [G_apply, Read.val_main_v30_apply]
  -- the reshape drops the unit axis: edge `e` of the result is row `e`, column 0 of the readout
  have h30 : Read.idx_main_v30 (ix1 e) = ix2 e (0 : Fin 1) := by
    funext a
    match a with
    | ⟨0, _⟩ => exact Fin.ext (Nat.div_one e.val)
    | ⟨1, _⟩ => rfl
  rw [h30, Read.val_main_v29_apply, Read.val_main_v26_apply, Read.val_main_v28_apply, Read.val_main_v27_apply,
    Ideal.addf_def]
  -- the readout bias, broadcast twice, is `b2` at its one index
  have hb2 : Read.idx_main_v27 (Read.idx_main_v28 (ix2 e (0 : Fin 1))) = ix1 (0 : Fin 1) := by
    funext a
    match a with
    | ⟨0, _⟩ => rfl
  rw [hb2]
  unfold score
  congr 1
  refine Finset.sum_congr rfl fun j _ => ?_
  -- hidden unit `j`: the rectified first layer at `(e, j)` times the transposed readout weight at `(j, 0)`
  have hl : Read.lidx_main_v26 (ix2 e (0 : Fin 1)) j = ix2 e j := by
    funext a
    match a with
    | ⟨0, _⟩ => rfl
    | ⟨1, _⟩ => rfl
  have hr : Read.val_main_v25 (F := Ideal) W2 (Read.ridx_main_v26 (ix2 e (0 : Fin 1)) j) = W2 (ix2 (0 : Fin 1) j) := by
    rw [Read.val_main_v25_apply]
    congr 1
    funext a
    match a with
    | ⟨0, _⟩ => rfl
    | ⟨1, _⟩ => rfl
  -- the first-layer bias, broadcast twice, is `b1` at `j`
  have hb1 : Read.idx_main_v21 (Read.idx_main_v22 (ix2 e j)) = ix1 j := by
    funext a
    match a with
    | ⟨0, _⟩ => rfl
  rw [hl, hr, Read.val_main_v24_apply, Ideal.maximumf_def, Read.val_main_v23_apply, Ideal.addf_def, hidden_at,
    Read.val_main_v22_apply, Read.val_main_v21_apply, hb1, Read.val_main_call0_v0_apply,
    Read.val_main_call0_cst_apply, Ideal.ofBits_def]

end Cert.EdgeMlp

end
-- ==== Proof.lean ====
/- An edge decoder of a graph network, scored by a two-layer perceptron: for each of 500000 edges (u, v) the rows z[u], z[v]
   of a 100000 × 128 embedding table are concatenated, sent through a 256-unit hidden layer with a rectifier, and read out
   to one number. The kernel gathers the rows in its surrounding glue (padding the 500000 edges to 123 blocks of 4096),
   splits the first layer into its two 128-column halves so that no concatenation is needed, runs the perceptron block by
   block in one pipelined region, and keeps the first 500000 scores. The reference gathers, concatenates and multiplies
   whole arrays.

   Over the extended reals the two agree: a sum over the 256 concatenated columns is the sum over the first 128 plus the sum
   over the last 128 (commutativity and associativity of addition only, so no finiteness is used), the narrowing of the
   operands to a shorter float format is the identity, and a product with a transposed operand reads the same entries.

   One thing differs outside the table's index range: the kernel's gather replaces a row whose index is out of range by a
   filler word, the reference's reads a clamped row. The statement therefore carries, beside the finiteness of the float
   inputs, that every index lies in [-100000, 100000) — where the reference itself indexes inside the table, a negative
   index counting from the end in both programs. Under it the kernel's range test passes on every row, padding included
   (the padding indexes row 0), and both gathers read the same row.

   The kernel's idealization rewrote nothing (its ledger is empty), so that conjunct is trivial; the kernel's two frames are
   the generated ones and the reference's frame is its generated run with the result dropped. -/
import proofs.«431329_j30176440221878_1_alg».proof.Defs
import proofs.«431329_j30176440221878_1_alg».proof.Proof.Gen.Kernel
import proofs.«431329_j30176440221878_1_alg».proof.Proof.Gen.Kernel.Skeleton
import proofs.«431329_j30176440221878_1_alg».proof.Proof.Gen.Kernel.Launch
import proofs.«431329_j30176440221878_1_alg».proof.Proof.Gen.Kernel.Points
import proofs.«431329_j30176440221878_1_alg».proof.Proof.Gen.Kernel.Frame
import proofs.«431329_j30176440221878_1_alg».proof.Proof.Gen.KernelIdeal
import proofs.«431329_j30176440221878_1_alg».proof.Proof.Gen.KernelIdeal.Skeleton
import proofs.«431329_j30176440221878_1_alg».proof.Proof.Gen.KernelIdeal.Launch
import proofs.«431329_j30176440221878_1_alg».proof.Proof.Gen.KernelIdeal.Points
import proofs.«431329_j30176440221878_1_alg».proof.Proof.Gen.KernelIdeal.Frame
import proofs.«431329_j30176440221878_1_alg».proof.Proof.Gen.ReferenceIdeal
import proofs.«431329_j30176440221878_1_alg».proof.Proof.Gen.ReferenceIdeal.Run
import proofs.«431329_j30176440221878_1_alg».proof.Proof.Gen.ReferenceIdeal.Read
import proofs.«431329_j30176440221878_1_alg».proof.Proof.Gen.Pre_finite_inputs
import proofs.«431329_j30176440221878_1_alg».proof.Proof.KernelRun
import proofs.«431329_j30176440221878_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six inputs both programs end with the specification's scores: the kernel's run names
    its result as the specification of its own inputs, the reference's last stage is the specification of its inputs,
    and the inputs agree. -/
theorem algebraic : Cert.algebraic_KernelIdeal_ReferenceIdeal := by
  intro m ρ m' ρ' hpre hagree
  refine ⟨fun c => Cert.KernelIdeal.Arr.spec m c, Cert.KernelIdeal.Arr.kernel_run m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v30_eq, Cert.EdgeMlp.ref_eq_G, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
